-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x200x128 : Shape := ⟨3, ![4096, 200, 128]⟩
abbrev S4096 : Shape := ⟨1, ![4096]⟩
abbrev S_ : Shape := ⟨0, ![]⟩

class Facts : Prop where
  bcast_S_S4096x200x128 : S_.BroadcastsInDim S4096x200x128 (![] : Fin 0 → Fin S4096x200x128.rank)
  reducesTo_S4096x200x128_S_d0_1_2 : S4096x200x128.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x200x128 .f32) (main_arg1 : IVec S4096 32) : IVec S_ 1 :=
  let main_v0 : FVec F S4096x200x128 .f32 := Host.absf main_arg0
  let main_cst : FVec F S_ .f32 := constant S_ .f32 0x7F800000#32
  let main_v1 : FVec F S4096x200x128 .f32 := broadcastInDim S4096x200x128 ![] bcast_S_S4096x200x128 main_cst
  let main_v2 : IVec S4096x200x128 1 := cmpf .olt main_v0 main_v1
  let main_c : IVec S_ 1 := constantI S_ 1 1#1
  let main_v3 : IVec S_ 1 := (fun x v => Host.reduce IntOp.andi x v reducesTo_S4096x200x128_S_d0_1_2 h_S_) main_v2 main_c
  let main_c_0 : IVec S_ 32 := constantI S_ 32 0#32
  let main_v4 : IVec S4096 32 := broadcastInDim S4096 ![] bcast_S_S4096 main_c_0
  let main_v5 : IVec S4096 1 := cmpi .sge main_arg1 main_v4
  let main_c_1 : IVec S_ 1 := constantI S_ 1 1#1
  let main_v6 : IVec S_ 1 := (fun x v => Host.reduce IntOp.andi x v reducesTo_S4096_S_d0 h_S_) main_v5 main_c_1
  let main_v7 : IVec S_ 1 := andi main_v3 main_v6
  main_v7
-- ==== Kernel.lean ====
abbrev S4096x200x128 : Shape := ⟨3, ![4096, 200, 128]⟩
abbrev S4096 : Shape := ⟨1, ![4096]⟩
abbrev S4096x1 : Shape := ⟨2, ![4096, 1]⟩
abbrev S64x200x128 : Shape := ⟨3, ![64, 200, 128]⟩
abbrev S64x1 : Shape := ⟨2, ![64, 1]⟩
abbrev S64x200 : Shape := ⟨2, ![64, 200]⟩
abbrev S64x200x1 : Shape := ⟨3, ![64, 200, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x200x128, .f32⟩
  | .hbm, ⟨1, _⟩ => ⟨S4096, .i32⟩
  | .hbm, ⟨2, _⟩ => ⟨S4096x1, .i32⟩
  | .hbm, ⟨3, _⟩ => ⟨S4096x200x128, .f32⟩
  | .local _ .vmem, ⟨0, _⟩ => ⟨S64x200x128, .f32⟩
  | .local _ .vmem, ⟨1, _⟩ => ⟨S64x200x128, .f32⟩
  | .local _ .vmem, ⟨2, _⟩ => ⟨S64x1, .i32⟩
  | .local _ .vmem, ⟨3, _⟩ => ⟨S64x1, .i32⟩
  | .local _ .vmem, ⟨4, _⟩ => ⟨S64x200x128, .f32⟩
  | .local _ .vmem, ⟨5, _⟩ => ⟨S64x200x128, .f32⟩
  | _, _ => ⟨S4096x200x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x200x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4096_S4096x1 : S4096.ShapeCasts S4096x1
  inb_S64x1_S64x1_0_0 : ∀ a, (![0, 0] : Fin 2 → Nat) a + S64x1.size a ≤ S64x1.size a
  h_S64x1 : 0 < S64x1.numel
  shapeCasts_S64x1_S64x1 : S64x1.ShapeCasts S64x1
  iota_S64x200_d1_w32 : S64x200.Iotas .tc 32 [1]
  natLt_1_32 : 1 < 32
  broadcasts_S64x1_S64x200 : S64x1.Broadcasts S64x200
  inb_S64x200x128_S64x200x128_0_0_0 : ∀ a, (![0, 0, 0] : Fin 3 → Nat) a + S64x200x128.size a ≤ S64x200x128.size a
  h_S64x200x128 : 0 < S64x200x128.numel
  shapeCasts_S64x200_S64x200x1 : S64x200.ShapeCasts S64x200x1
  broadcasts_S64x200x1_S64x200x128 : S64x200x1.Broadcasts S64x200x128
  rotates_S64x200x128_d1 : S64x200x128.Rotates 1 none
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x200x128.size a ≤ S4096x200x128.size a
  hwx0_0 : ∀ i : grid0.Coords, EltTy.bits .f32 = 32 ∨ (Rect.block (s := S4096x200x128) S64x200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S4096x1.size a
  hwx0_1 : ∀ i : grid0.Coords, EltTy.bits .i32 = 32 ∨ (Rect.block (s := S4096x1) S64x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x200x128.size a ≤ S4096x200x128.size a
  hwx0_2 : ∀ i : grid0.Coords, EltTy.bits .f32 = 32 ∨ (Rect.block (s := S4096x200x128) S64x200x128.size (cc0_transform_2 i) (hinb0_2 i)).WholeWords (EltTy.packing .f32)

variable [Facts₀]

abbrev win0_0 : Pipeline.Window sig grid0 :=
  Pipeline.Window.ofSpec (Memref.whole main_arg0) S64x200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x200x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x200x128 : Shape := ⟨3, ![4096, 200, 128]⟩
abbrev S4096 : Shape := ⟨1, ![4096]⟩
abbrev S4096x1 : Shape := ⟨2, ![4096, 1]⟩
abbrev S1x200 : Shape := ⟨2, ![1, 200]⟩
abbrev S4096x200 : Shape := ⟨2, ![4096, 200]⟩
abbrev S200 : Shape := ⟨1, ![200]⟩
abbrev S_ : Shape := ⟨0, ![]⟩
abbrev S4096x1x1 : Shape := ⟨3, ![4096, 1, 1]⟩
abbrev S1 : Shape := ⟨1, ![1]⟩
abbrev S1x1x1 : Shape := ⟨3, ![1, 1, 1]⟩
abbrev S4096x200x1 : Shape := ⟨3, ![4096, 200, 1]⟩
abbrev S4096x1x128 : Shape := ⟨3, ![4096, 1, 128]⟩
abbrev S4096x199x128 : Shape := ⟨3, ![4096, 199, 128]⟩
abbrev S4096x2x128 : Shape := ⟨3, ![4096, 2, 128]⟩
abbrev S4096x198x128 : Shape := ⟨3, ![4096, 198, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x200x128, .f32⟩
  | .hbm, ⟨1, _⟩ => ⟨S4096, .i32⟩
  | .hbm, ⟨2, _⟩ => ⟨S4096x1, .i32⟩
  | .hbm, ⟨3, _⟩ => ⟨S1x200, .i32⟩
  | .hbm, ⟨4, _⟩ => ⟨S4096x200, .i32⟩
  | .hbm, ⟨5, _⟩ => ⟨S4096x200, .i32⟩
  | .hbm, ⟨6, _⟩ => ⟨S4096x200, .i1⟩
  | .hbm, ⟨7, _⟩ => ⟨S4096x200, .f32⟩
  | .hbm, ⟨8, _⟩ => ⟨S4096x1, .i32⟩
  | .hbm, ⟨9, _⟩ => ⟨S200, .i32⟩
  | .hbm, ⟨10, _⟩ => ⟨S1x200, .i32⟩
  | .hbm, ⟨11, _⟩ => ⟨S_, .i32⟩
  | .hbm, ⟨12, _⟩ => ⟨S4096x1, .i32⟩
  | .hbm, ⟨13, _⟩ => ⟨S4096x1, .i1⟩
  | .hbm, ⟨14, _⟩ => ⟨S_, .i32⟩
  | .hbm, ⟨15, _⟩ => ⟨S4096x1, .i32⟩
  | .hbm, ⟨16, _⟩ => ⟨S4096x1, .i32⟩
  | .hbm, ⟨17, _⟩ => ⟨S4096x1, .i32⟩
  | .hbm, ⟨18, _⟩ => ⟨S4096x1x1, .i32⟩
  | .hbm, ⟨19, _⟩ => ⟨S1, .i32⟩
  | .hbm, ⟨20, _⟩ => ⟨S_, .i32⟩
  | .hbm, ⟨21, _⟩ => ⟨S4096x1x1, .i32⟩
  | .hbm, ⟨22, _⟩ => ⟨S4096x1x1, .i1⟩
  | .hbm, ⟨23, _⟩ => ⟨S1x1x1, .i32⟩
  | .hbm, ⟨24, _⟩ => ⟨S4096x1x1, .i32⟩
  | .hbm, ⟨25, _⟩ => ⟨S4096x1x1, .i1⟩
  | .hbm, ⟨26, _⟩ => ⟨S4096x1x1, .i1⟩
  | .hbm, ⟨27, _⟩ => ⟨S_, .i1⟩
  | .hbm, ⟨28, _⟩ => ⟨S4096x1, .i1⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .i32⟩
  | .hbm, ⟨34, _⟩ => ⟨S4096, .i32⟩
  | .hbm, ⟨35, _⟩ => ⟨S4096, .i1⟩
  | .hbm, ⟨36, _⟩ => ⟨S4096x1, .i1⟩
  | .hbm, ⟨37, _⟩ => ⟨S4096x1, .f32⟩
  | .hbm, ⟨38, _⟩ => ⟨S4096x200, .i32⟩
  | .hbm, ⟨39, _⟩ => ⟨S4096x200, .i32⟩
  | .hbm, ⟨40, _⟩ => ⟨S4096x200, .i1⟩
  | .hbm, ⟨41, _⟩ => ⟨S4096x200, .f32⟩
  | .hbm, ⟨42, _⟩ => ⟨S4096x200, .f32⟩
  | .hbm, ⟨43, _⟩ => ⟨S4096x200, .i32⟩
  | .hbm, ⟨44, _⟩ => ⟨S4096x200, .i32⟩
  | .hbm, ⟨45, _⟩ => ⟨S4096x200, .i1⟩
  | .hbm, ⟨46, _⟩ => ⟨S_, .f32⟩
  | .hbm, ⟨47, _⟩ => ⟨S4096x200, .f32⟩
  | .hbm, ⟨48, _⟩ => ⟨S4096x200, .f32⟩
  | .hbm, ⟨49, _⟩ => ⟨S4096x200, .f32⟩
  | .hbm, ⟨50, _⟩ => ⟨S4096x200, .i32⟩
  | .hbm, ⟨51, _⟩ => ⟨S4096x200, .i32⟩
  | .hbm, ⟨52, _⟩ => ⟨S4096x200, .i1⟩
  | .hbm, ⟨53, _⟩ => ⟨S_, .i32⟩
  | .hbm, ⟨54, _⟩ => ⟨S1x200, .i32⟩
  | .hbm, ⟨55, _⟩ => ⟨S1x200, .i1⟩
  | .hbm, ⟨56, _⟩ => ⟨S4096x200, .i1⟩
  | .hbm, ⟨57, _⟩ => ⟨S4096x200, .i1⟩
  | .hbm, ⟨58, _⟩ => ⟨S4096x200, .f32⟩
  | .hbm, ⟨59, _⟩ => ⟨S4096x200, .f32⟩
  | .hbm, ⟨60, _⟩ => ⟨S_, .f32⟩
  | .hbm, ⟨61, _⟩ => ⟨S4096x200, .f32⟩
  | .hbm, ⟨62, _⟩ => ⟨S4096x200, .f32⟩
  | .hbm, ⟨63, _⟩ => ⟨S4096x200, .f32⟩
  | .hbm, ⟨64, _⟩ => ⟨S4096x200, .f32⟩
  | .hbm, ⟨65, _⟩ => ⟨S4096x200, .f32⟩
  | .hbm, ⟨66, _⟩ => ⟨S4096x200, .f32⟩
  | .hbm, ⟨67, _⟩ => ⟨S4096x200x1, .f32⟩
  | .hbm, ⟨68, _⟩ => ⟨S4096x200x128, .f32⟩
  | .hbm, ⟨69, _⟩ => ⟨S4096x200x128, .f32⟩
  | .hbm, ⟨70, _⟩ => ⟨S4096x200x1, .f32⟩
  | .hbm, ⟨71, _⟩ => ⟨S4096x200x128, .f32⟩
  | .hbm, ⟨72, _⟩ => ⟨S4096x200x128, .f32⟩
  | .hbm, ⟨73, _⟩ => ⟨S4096x1x128, .f32⟩
  | .hbm, ⟨74, _⟩ => ⟨S4096x199x128, .f32⟩
  | .hbm, ⟨75, _⟩ => ⟨S4096x200x128, .f32⟩
  | .hbm, ⟨76, _⟩ => ⟨S4096x200x1, .f32⟩
  | .hbm, ⟨77, _⟩ => ⟨S4096x200x128, .f32⟩
  | .hbm, ⟨78, _⟩ => ⟨S4096x200x128, .f32⟩
  | .hbm, ⟨79, _⟩ => ⟨S4096x2x128, .f32⟩
  | .hbm, ⟨80, _⟩ => ⟨S4096x198x128, .f32⟩
  | .hbm, ⟨81, _⟩ => ⟨S4096x200x128, .f32⟩
  | .hbm, ⟨82, _⟩ => ⟨S4096x200x128, .f32⟩
  | .hbm, ⟨83, _⟩ => ⟨S4096x200x128, .f32⟩
  | _, _ => ⟨S4096x200x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_cst : Ref sig .tc := ⟨.hbm, 30, rfl⟩
abbrev main_call1_v14 : Ref sig .tc := ⟨.hbm, 31, rfl⟩
abbrev main_v4 : Ref sig .tc := ⟨.hbm, 32, rfl⟩
abbrev main_c : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst : Ref sig .tc := ⟨.hbm, 46, rfl⟩
abbrev main_call2_v0 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_c_0 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_cst_1 : Ref sig .tc := ⟨.hbm, 60, rfl⟩
abbrev main_call4_v0 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_call5_v0 : Ref sig .tc := ⟨.hbm, 73, rfl⟩
abbrev main_call5_v1 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call6_v0 : Ref sig .tc := ⟨.hbm, 79, rfl⟩
abbrev main_call6_v1 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x200_0_1 : S4096x1.BroadcastsInDim S4096x200 (![0, 1] : Fin 2 → Fin S4096x200.rank)
  bcast_S1x200_S4096x200_0_1 : S1x200.BroadcastsInDim S4096x200 (![0, 1] : Fin 2 → Fin S4096x200.rank)
  bcast_S200_S1x200_1 : S200.BroadcastsInDim S1x200 (![1] : Fin 1 → Fin S1x200.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  h_S_ : 0 < S_.numel
  bcast_S_S4096 : S_.BroadcastsInDim S4096 (![] : Fin 0 → Fin S4096.rank)
  bcast_S_S4096x200 : S_.BroadcastsInDim S4096x200 (![] : Fin 0 → Fin S4096x200.rank)
  bcast_S_S1x200 : S_.BroadcastsInDim S1x200 (![] : Fin 0 → Fin S1x200.rank)
  bcast_S4096x200_S4096x200x1_0_1 : S4096x200.BroadcastsInDim S4096x200x1 (![0, 1] : Fin 2 → Fin S4096x200x1.rank)
  bcast_S4096x200x1_S4096x200x128_0_1_2 : S4096x200x1.BroadcastsInDim S4096x200x128 (![0, 1, 2] : Fin 3 → Fin S4096x200x128.rank)
  slices_S4096x200x128_S4096x1x128_0_199_0 : S4096x200x128.Slices ![0, 199, 0] S4096x1x128
  slices_S4096x200x128_S4096x199x128_0_0_0 : S4096x200x128.Slices ![0, 0, 0] S4096x199x128
  concatenates_S4096x1x128_S4096x199x128_S4096x200x128_d1 : Shape.Concatenates [S4096x1x128, S4096x199x128] S4096x200x128 1
  slices_S4096x200x128_S4096x2x128_0_198_0 : S4096x200x128.Slices ![0, 198, 0] S4096x2x128
  slices_S4096x200x128_S4096x198x128_0_0_0 : S4096x200x128.Slices ![0, 0, 0] S4096x198x128
  concatenates_S4096x2x128_S4096x198x128_S4096x200x128_d1 : Shape.Concatenates [S4096x2x128, S4096x198x128] S4096x200x128 1
  gather_S4096x200_S4096x1x1_S4096x1_n_1_0_0_1_2_11_wf : GatherDims.WF S4096x200 S4096x1x1 S4096x1 [] [1] [0] [1] [0] 2 ![1, 1]

variable [Facts₀]

def gather_S4096x200_S4096x1x1_S4096x1_n_1_0_0_1_2_11 : GatherDims S4096x200 S4096x1x1 S4096x1 where
  offsetDims := []
  collapsedSliceDims := [1]
  operandBatchingDims := [0]
  startIndicesBatchingDims := [0]
  startIndexMap := [1]
  indexVectorDim := 2
  sliceSizes := ![1, 1]
  wf := gather_S4096x200_S4096x1x1_S4096x1_n_1_0_0_1_2_11_wf

class Facts : Prop extends Facts₀ where

variable [Facts]
-- ==== Proof.Masks.lean ====
/-
  The three position masks of the sequence operator as extended reals, in the two forms the two programs build them.

  Throughout, p is a signed 32-bit position word, i < 200 a column, ι the word of i, and [c] a condition bit read as
  the extended real 0 or 1 (an unsigned conversion of the bit on the exact reals). One program uses
      left  p i = [ι < p] · [p ≤ 197]
      at    p i = [ι = p]
      right p i = [p < ι and ι < 198] · [p ≤ 197].
  The other starts from the one-hot row e i = [p = ι] and a value v it reads back out of that row at position p:
      left'  p i v = (if ι < p then e i + v else if ι = p then 0 else e i) · [p ≤ 197]
      right' p i v = (if p < ι and ι < 198 then e i + v else 0) · [p ≤ 197].
  For 0 ≤ p the two forms agree. If p ≤ 197 then p is itself a column, so the value read back is v = 1, and
  e i = 0 at every column other than p: the branches are 0 + 1, 0 and 0. If p > 197 both forms carry the factor
  [p ≤ 197] = 0, and every extended real times 0 is 0, so what v is there does not matter.
-/
import Idealize.ShloMosaic.PureOps.Ideal
import Idealize.ShloMosaic.Lib.ValueIdx
import Idealize.ShloMosaic.Lib.Affine
import Idealize.ShloMosaic.Lib.StableHlo.Predicate

noncomputable section

namespace Cert.SeqMasks

open Idealize.ShloMosaic Idealize.ShloMosaic.ValueIdx

/-- A condition bit as the extended real 0 or 1. -/
abbrev bitE (c : BitVec 1) : EReal := ((c.toNat : ℝ) : EReal)

theorem bitE_one : bitE 1#1 = 1 := by
  show (((1 : ℕ) : ℝ) : EReal) = 1
  norm_cast

theorem bitE_zero : bitE 0#1 = 0 := by
  show (((0 : ℕ) : ℝ) : EReal) = 0
  norm_cast

theorem bitE_of (c : BitVec 1) (h : c = 1#1) : bitE c = 1 := by rw [h]; exact bitE_one
theorem bitE_of_not (c : BitVec 1) (h : ¬c = 1#1) : bitE c = 0 := by rw [eq_zero_of_ne_one h]; exact bitE_zero

/-- The word of column i. -/
abbrev col (i : ℕ) : BitVec 32 := BitVec.ofNat 32 i

/-- A column's word read signed is the column. -/
theorem col_toInt (i : ℕ) (hi : i < 200) : (col i).toInt = (i : ℤ) :=
  StableHlo.Predicate.toInt_ofNat_small i (by omega)

/-- [p ≤ 197]: the position leaves room for the two shifted pieces. -/
def validBit (p : BitVec 32) : BitVec 1 := IntOp.cmpi .sle p 197#32

theorem validBit_iff (p : BitVec 32) : validBit p = 1#1 ↔ p.toInt ≤ 197 := by
  unfold validBit
  rw [IntOp.cmpi_sle]
  rfl

def leftMask (p : BitVec 32) (i : ℕ) : EReal := bitE (IntOp.cmpi .slt (col i) p) * bitE (validBit p)

def atMask (p : BitVec 32) (i : ℕ) : EReal := bitE (IntOp.cmpi .eq (col i) p)

def rightMask (p : BitVec 32) (i : ℕ) : EReal :=
  bitE (IntOp.andi (IntOp.cmpi .sgt (col i) p) (IntOp.cmpi .slt (col i) 198#32)) * bitE (validBit p)

/-- The left mask built from the one-hot row and the value v read back from it; z is the zero it fills with. -/
def leftMask' (p : BitVec 32) (i : ℕ) (v z : EReal) : EReal :=
  Scalar.select (IntOp.cmpi .slt (col i) p) (bitE (IntOp.cmpi .eq p (col i)) + v)
    (Scalar.select (IntOp.cmpi .eq (col i) p) z (bitE (IntOp.cmpi .eq p (col i)))) * bitE (validBit p)

/-- The right mask built the same way. -/
def rightMask' (p : BitVec 32) (i : ℕ) (v z : EReal) : EReal :=
  Scalar.select (IntOp.andi (IntOp.cmpi .sgt (col i) p) (IntOp.cmpi .slt (col i) 198#32))
    (bitE (IntOp.cmpi .eq p (col i)) + v) z * bitE (validBit p)

/-- The one-hot row is 0 at a column other than p. -/
theorem onehot_off (p : BitVec 32) (i : ℕ) (h : col i ≠ p) : bitE (IntOp.cmpi .eq p (col i)) = 0 :=
  bitE_of_not _ fun e => h (IntOp.cmpi_eq.1 e).symm

/-- The one-hot row compares the position with the column, the "at" mask the column with the position: one bit. -/
theorem onehot_eq_atMask (p : BitVec 32) (i : ℕ) : bitE (IntOp.cmpi .eq p (col i)) = atMask p i := by
  unfold atMask
  by_cases h : col i = p
  · rw [bitE_of _ (IntOp.cmpi_eq.2 h.symm), bitE_of _ (IntOp.cmpi_eq.2 h)]
  · rw [onehot_off p i h, bitE_of_not _ fun e => h (IntOp.cmpi_eq.1 e)]

/-- The two left masks agree for a nonnegative position, given that the value read back is 1 whenever p ≤ 197. -/
theorem leftMask'_eq (p : BitVec 32) (i : ℕ) (hi : i < 200) (v z : EReal) (hz : z = 0)
    (hv : p.toInt ≤ 197 → v = 1) : leftMask' p i v z = leftMask p i := by
  unfold leftMask' leftMask
  by_cases hval : p.toInt ≤ 197
  · by_cases hlt : IntOp.cmpi .slt (col i) p = 1#1
    · -- a column before p is not p: the row is 0 there and the branch is 0 + 1
      have hne : col i ≠ p := fun e => by
        have := IntOp.cmpi_slt.1 hlt; rw [e] at this; exact lt_irrefl _ this
      rw [hlt, select_one, onehot_off p i hne, hv hval, zero_add, bitE_one]
    · rw [eq_zero_of_ne_one hlt, select_zero, bitE_zero, zero_mul]
      by_cases heq : col i = p
      · rw [IntOp.cmpi_eq.2 heq, select_one, hz, zero_mul]
      · rw [eq_zero_of_ne_one (fun e => heq (IntOp.cmpi_eq.1 e)), select_zero, onehot_off p i heq, zero_mul]
  · rw [bitE_of_not _ (fun e => hval ((validBit_iff p).1 e)), mul_zero, mul_zero]

/-- The two right masks agree under the same conditions. -/
theorem rightMask'_eq (p : BitVec 32) (i : ℕ) (hi : i < 200) (v z : EReal) (hz : z = 0)
    (hv : p.toInt ≤ 197 → v = 1) : rightMask' p i v z = rightMask p i := by
  unfold rightMask' rightMask
  by_cases hval : p.toInt ≤ 197
  · by_cases hin : IntOp.andi (IntOp.cmpi .sgt (col i) p) (IntOp.cmpi .slt (col i) 198#32) = 1#1
    · -- a column after p is not p
      have hne : col i ≠ p := fun e => by
        have := IntOp.cmpi_sgt.1 (IntOp.andi_eq_one.1 hin).1; rw [e] at this; exact lt_irrefl _ this
      rw [hin, select_one, onehot_off p i hne, hv hval, zero_add, bitE_one]
    · rw [eq_zero_of_ne_one hin, select_zero, hz, bitE_zero]
  · rw [bitE_of_not _ (fun e => hval ((validBit_iff p).1 e)), mul_zero, mul_zero]

/-! ## The value read back from the one-hot row -/

/-- A nonnegative position is not moved by the wrap of negative positions. -/
theorem wrap_of_nonneg (p : BitVec 32) (h0 : 0 ≤ p.toInt) :
    Scalar.select (IntOp.cmpi .slt p 0#32) (IntOp.addi p 200#32) p = p := by
  have : ¬IntOp.cmpi .slt p 0#32 = 1#1 := fun e => by
    have := IntOp.cmpi_slt.1 e
    have h00 : (0#32 : BitVec 32).toInt = 0 := by decide
    omega
  rw [eq_zero_of_ne_one this, select_zero]

/-- A position in [0, 199] passes the range test. -/
theorem inRange_of (q : BitVec 32) (h0 : 0 ≤ q.toInt) (h1 : q.toInt ≤ 199) :
    IntOp.andi (IntOp.cmpi .sge q 0#32) (IntOp.cmpi .sle q 199#32) = 1#1 := by
  refine IntOp.andi_eq_one.2 ⟨IntOp.cmpi_sge.2 ?_, IntOp.cmpi_sle.2 ?_⟩
  · have h00 : (0#32 : BitVec 32).toInt = 0 := by decide
    omega
  · have h199 : (199#32 : BitVec 32).toInt = 199 := by decide
    omega

/-- A position in [0, 199], read signed and clamped to the last column, is its own column: its word is the
    column's word. -/
theorem col_clamp (q : BitVec 32) (h0 : 0 ≤ q.toInt) (h1 : q.toInt ≤ 199) :
    min q.toInt.toNat 199 < 200 ∧ col (min q.toInt.toNat 199) = q := by
  have hn : q.toInt = (q.toNat : ℤ) := by
    have h := BitVec.toInt_eq_toNat_cond q
    have := q.isLt
    split at h <;> omega
  have hq : q.toInt.toNat = q.toNat := by rw [hn]; exact Int.toNat_natCast _
  have hle : q.toNat ≤ 199 := by omega
  rw [hq, Nat.min_eq_left hle]
  refine ⟨by omega, BitVec.eq_of_toNat_eq ?_⟩
  rw [BitVec.toNat_ofNat]
  exact Nat.mod_eq_of_lt q.isLt

end Cert.SeqMasks

end
-- ==== Proof.Spec.lean ====
/-
  The sequence operator as one function of its two arguments.

  x is a [4096, 200, 128] array of extended reals and pos a [4096] array of signed 32-bit positions. Row b of the
  result is built from row b of x and the position p = pos b with the three masks of Masks.lean:
      out[b, i, d] = x[b, i, d] · left p i  +  x[b, i-1, d] · at p (i-1)  +  x[b, i-2, d] · right p (i-2),
  where i-1 and i-2 are taken around the end of the 200 columns: the second and third terms are the masked rows
  rolled forward by one and by two columns.
-/
import proofs.«405079_j28106265985064_1_alg».proof.Proof.Masks

noncomputable section

namespace Cert.SeqSpec

open Idealize.ShloMosaic Idealize.ShloMosaic.ValueIdx Cert.SeqMasks

/-- The column a roll by s along the 200 columns reads at column i: i - s around the end. -/
def back (s : ℕ) (i : Fin 200) : Fin 200 := ⟨(i.val + 200 - s % 200) % 200, Nat.mod_lt _ (by decide)⟩

theorem back_val (s : ℕ) (i : Fin 200) : (back s i).val = (i.val + 200 - s % 200) % 200 := rfl

/-- The result array, index by index. -/
def G (x : (⟨3, ![4096, 200, 128]⟩ : Shape).Idx → EReal) (pos : (⟨1, ![4096]⟩ : Shape).Idx → BitVec 32) :
    (⟨3, ![4096, 200, 128]⟩ : Shape).Idx → EReal := fun j =>
  x j * leftMask (pos (ix1 (j 0))) (j 1).val
    + x (ix3 (j 0) (back 1 (j 1)) (j 2)) * atMask (pos (ix1 (j 0))) (back 1 (j 1)).val
    + x (ix3 (j 0) (back 2 (j 1)) (j 2)) * rightMask (pos (ix1 (j 0))) (back 2 (j 1)).val

theorem G_apply (x : (⟨3, ![4096, 200, 128]⟩ : Shape).Idx → EReal) (pos : (⟨1, ![4096]⟩ : Shape).Idx → BitVec 32)
    (b : Fin 4096) (i : Fin 200) (d : Fin 128) :
    G x pos (ix3 b i d) = x (ix3 b i d) * leftMask (pos (ix1 b)) i.val
      + x (ix3 b (back 1 i) d) * atMask (pos (ix1 b)) (back 1 i).val
      + x (ix3 b (back 2 i) d) * rightMask (pos (ix1 b)) (back 2 i).val := rfl

end Cert.SeqSpec

end
-- ==== Proof.BlockOps.lean ====
/-
  The layout operations of one [64, 200, 128] block, read at an index (b, i, d).

  A [64, 1] column broadcast along 200 columns reads its row; a column iota reads the column's word; a [64, 200]
  mask viewed as [64, 200, 1] and broadcast along the 128 lanes reads (b, i) whatever the lane; a rotation by s
  along the 200 columns reads column i - s around the end.
-/
import Idealize.ShloMosaic.Lib.KernelVsHost
import Idealize.ShloMosaic.Lib.Pipeline.Value
import Idealize.ShloMosaic.Lib.ValueIdx

noncomputable section

namespace Cert.SeqBlock

open Idealize.ShloMosaic Idealize.ShloMosaic.ValueIdx

variable {α : Type}

/-- A [64, 1] column broadcast to [64, 200] reads its row at every column. -/
theorem bcast_col_apply (v : (⟨2, ![64, 1]⟩ : Shape).Idx → α) (h : (⟨2, ![64, 1]⟩ : Shape).Broadcasts ⟨2, ![64, 200]⟩)
    (b : Fin 64) (i : Fin 200) : broadcastTo ⟨2, ![64, 200]⟩ v h (ix2 b i) = v (ix2 b (0 : Fin 1)) :=
  broadcastTo_apply v h (ix2 b i) (ix2 b (0 : Fin 1)) (fun a => match a with
    | ⟨0, _⟩ => by show b.val = if (64 : Nat) = 1 then 0 else b.val; rw [if_neg (by decide)]
    | ⟨1, _⟩ => by show 0 = if (1 : Nat) = 1 then 0 else i.val; rw [if_pos rfl])

/-- The iota along the columns of a [64, 200] block reads the column's word. -/
theorem iota_col_apply (h : (⟨2, ![64, 200]⟩ : Shape).Iotas .tc 32 [1]) (b : Fin 64) (i : Fin 200) :
    iota .tc ⟨2, ![64, 200]⟩ 32 [1] h (ix2 b i) = BitVec.ofNat 32 i.val :=
  iota_single_apply .tc ⟨2, ![64, 200]⟩ 32 1 h (ix2 b i)

/-- A [64, 200] array viewed as [64, 200, 1] and broadcast along the 128 lanes reads (b, i) at (b, i, d). -/
theorem cast_bcast_apply (M : (⟨2, ![64, 200]⟩ : Shape).Idx → α)
    (h1 : (⟨2, ![64, 200]⟩ : Shape).ShapeCasts ⟨3, ![64, 200, 1]⟩)
    (h2 : (⟨3, ![64, 200, 1]⟩ : Shape).Broadcasts ⟨3, ![64, 200, 128]⟩) (b : Fin 64) (i : Fin 200) (d : Fin 128) :
    broadcastTo ⟨3, ![64, 200, 128]⟩ (shapeCast ⟨3, ![64, 200, 1]⟩ M h1) h2 (ix3 b i d) = M (ix2 b i) := by
  refine (broadcastTo_apply _ h2 (ix3 b i d) (ix3 b i (0 : Fin 1)) (fun a => match a with
    | ⟨0, _⟩ => by show b.val = if (64 : Nat) = 1 then 0 else b.val; rw [if_neg (by decide)]
    | ⟨1, _⟩ => by show i.val = if (200 : Nat) = 1 then 0 else i.val; rw [if_neg (by decide)]
    | ⟨2, _⟩ => by show 0 = if (1 : Nat) = 1 then 0 else d.val; rw [if_pos rfl])).trans ?_
  refine shapeCast_apply M h1 (ix3 b i (0 : Fin 1)) (ix2 b i) ?_
  rw [Shape.rowMajor_val_two, Shape.rowMajor_val_three]
  show b.val * 200 + i.val = (b.val * 200 + i.val) * 1 + 0
  omega

/-- A rotation by s along the 200 columns of a [64, 200, 128] block reads column k = i - s around the end. -/
theorem rotate_cols_apply (y : (⟨3, ![64, 200, 128]⟩ : Shape).Idx → α) (sb : BitVec 32)
    (h : (⟨3, ![64, 200, 128]⟩ : Shape).Rotates 1 none) (b : Fin 64) (i k : Fin 200) (d : Fin 128)
    (hk : k.val = (i.val + 200 - sb.toNat % 200) % 200) :
    dynamicRotate 1 sb none y h (ix3 b i d) = y (ix3 b k d) :=
  dynamicRotate_apply 1 sb y h (ix3 b i d) (ix3 b k d) (fun a => by
    by_cases ha : a = 1
    · subst ha; rw [if_pos rfl]; exact hk
    · rw [if_neg ha]
      match a, ha with
      | ⟨0, _⟩, _ => rfl
      | ⟨1, _⟩, ha => exact absurd (Fin.ext rfl) ha
      | ⟨2, _⟩, _ => rfl)

end Cert.SeqBlock

end
-- ==== Proof.KernelValue.lean ====
/-
  What the kernel leaves in its result array: the sequence operator of Spec.lean, index by index.

  The grid has 64 points; point t handles rows 64 t … 64 t + 63. Its body loads the [64, 200, 128] block of x and
  the [64, 1] block of positions, forms the three [64, 200] masks from the positions and a column iota, multiplies
  the block by each mask along the lanes, rolls the second product by one column and the third by two, and stores
  the sum. So the stored block at (b, i, d) is
      x[b, i, d] · left p i + x[b, i-1, d] · at p (i-1) + x[b, i-2, d] · right p (i-2),   p = pos[b],
  over the block's own rows: the rolls stay inside the block because a block holds whole rows. The 64 blocks tile
  the array, so the array ends as that function of the two arguments (the positions reach the kernel as a [4096, 1]
  column, which is the [4096] argument viewed so).
-/
import proofs.«405079_j28106265985064_1_alg».proof.Proof.Gen.KernelIdeal.Value
import proofs.«405079_j28106265985064_1_alg».proof.Proof.Spec
import proofs.«405079_j28106265985064_1_alg».proof.Proof.BlockOps
import Idealize.ShloMosaic.Lib.Pipeline.Value
import Idealize.ShloMosaic.Lib.KernelVsHost
import Idealize.ShloMosaic.Lib.StableHlo.Run

noncomputable section

namespace Cert.KernelIdeal.SeqValue

open Cert.KernelIdeal Cert.KernelIdeal.Gen Idealize.ShloMosaic Idealize.ShloMosaic.TcCoe Idealize.SL.Sem
open Idealize.ShloMosaic.ValueIdx Cert.SeqMasks Cert.SeqSpec Cert.SeqBlock
open Idealize.ShloMosaic.Pipeline (Dat)

/-! ## The block's three masks -/

/-- [p ≤ 197] per row of the block, as a [64, 1] column of extended reals. -/
abbrev validV (pb : Vec Ideal S64x1 .i32) : FVec Ideal S64x1 .f32 :=
  sitofp .f32 (extui 32 (cmpi .sle (shapeCast S64x1 pb shapeCasts_S64x1_S64x1) (broadcast S64x1 197#32)) natLt_1_32)

abbrev posB (pb : Vec Ideal S64x1 .i32) : IVec S64x200 32 :=
  broadcastTo S64x200 (shapeCast S64x1 pb shapeCasts_S64x1_S64x1) broadcasts_S64x1_S64x200

abbrev colsV : IVec S64x200 32 := iota .tc S64x200 32 [1] iota_S64x200_d1_w32

abbrev leftV (pb : Vec Ideal S64x1 .i32) : FVec Ideal S64x200 .f32 :=
  mulf (sitofp .f32 (extui 32 (cmpi .slt colsV (posB pb)) natLt_1_32)) (broadcastTo S64x200 (validV pb) broadcasts_S64x1_S64x200)

abbrev atV (pb : Vec Ideal S64x1 .i32) : FVec Ideal S64x200 .f32 :=
  sitofp .f32 (extui 32 (cmpi .eq colsV (posB pb)) natLt_1_32)

abbrev rightV (pb : Vec Ideal S64x1 .i32) : FVec Ideal S64x200 .f32 :=
  mulf (sitofp .f32 (extui 32 (andi (cmpi .sgt colsV (posB pb)) (cmpi .slt colsV (broadcast S64x200 198#32))) natLt_1_32))
    (broadcastTo S64x200 (validV pb) broadcasts_S64x1_S64x200)

/-- A [64, 200] mask spread along the 128 lanes. -/
abbrev lanes (M : FVec Ideal S64x200 .f32) : FVec Ideal S64x200x128 .f32 :=
  broadcastTo S64x200x128 (shapeCast S64x200x1 M shapeCasts_S64x200_S64x200x1) broadcasts_S64x200x1_S64x200x128

/-- The body's arithmetic is the three masked products, the second rolled by one column and the third by two, summed. -/
theorem pay_eq (pb : Vec Ideal S64x1 .i32) (x : Vec Ideal S64x200x128 .f32) :
    k0_pay1 (F := Ideal) pb x = addf (addf (mulf x (lanes (leftV pb)))
        (dynamicRotate 1 1#32 none (mulf x (lanes (atV pb))) rotates_S64x200x128_d1))
      (dynamicRotate 1 2#32 none (mulf x (lanes (rightV pb))) rotates_S64x200x128_d1) := rfl

theorem colsV_apply (b : Fin 64) (i : Fin 200) : colsV (ix2 b i) = col i.val := iota_col_apply _ b i

theorem posB_apply (pb : Vec Ideal S64x1 .i32) (b : Fin 64) (i : Fin 200) : posB pb (ix2 b i) = pb (ix2 b (0 : Fin 1)) := by
  unfold posB
  rw [shapeCast_self]
  exact bcast_col_apply pb _ b i

theorem validV_apply (pb : Vec Ideal S64x1 .i32) (b : Fin 64) (i : Fin 200) :
    broadcastTo S64x200 (validV pb) broadcasts_S64x1_S64x200 (ix2 b i) = bitE (validBit (pb (ix2 b (0 : Fin 1)))) := by
  rw [bcast_col_apply]
  unfold validV
  rw [sitofp_extui_eq_uitofp, shapeCast_self]
  rfl

theorem leftV_apply (pb : Vec Ideal S64x1 .i32) (b : Fin 64) (i : Fin 200) :
    leftV pb (ix2 b i) = leftMask (pb (ix2 b (0 : Fin 1))) i.val := by
  show (sitofp .f32 (extui 32 (cmpi .slt colsV (posB pb)) natLt_1_32) : FVec Ideal S64x200 .f32) (ix2 b i)
    * broadcastTo S64x200 (validV pb) broadcasts_S64x1_S64x200 (ix2 b i) = _
  rw [validV_apply, sitofp_extui_eq_uitofp]
  show bitE (IntOp.cmpi .slt (colsV (ix2 b i)) (posB pb (ix2 b i))) * _ = _
  rw [posB_apply, colsV_apply]
  rfl

theorem atV_apply (pb : Vec Ideal S64x1 .i32) (b : Fin 64) (i : Fin 200) :
    atV pb (ix2 b i) = atMask (pb (ix2 b (0 : Fin 1))) i.val := by
  unfold atV
  rw [sitofp_extui_eq_uitofp]
  show bitE (IntOp.cmpi .eq (colsV (ix2 b i)) (posB pb (ix2 b i))) = _
  rw [posB_apply, colsV_apply]
  rfl

theorem rightV_apply (pb : Vec Ideal S64x1 .i32) (b : Fin 64) (i : Fin 200) :
    rightV pb (ix2 b i) = rightMask (pb (ix2 b (0 : Fin 1))) i.val := by
  show (sitofp .f32 (extui 32 (andi (cmpi .sgt colsV (posB pb)) (cmpi .slt colsV (broadcast S64x200 198#32))) natLt_1_32) : FVec Ideal S64x200 .f32) (ix2 b i)
    * broadcastTo S64x200 (validV pb) broadcasts_S64x1_S64x200 (ix2 b i) = _
  rw [validV_apply, sitofp_extui_eq_uitofp]
  show bitE (IntOp.andi (IntOp.cmpi .sgt (colsV (ix2 b i)) (posB pb (ix2 b i))) (IntOp.cmpi .slt (colsV (ix2 b i)) 198#32)) * _ = _
  rw [posB_apply, colsV_apply]
  rfl

/-- THE STORED BLOCK AT (b, i, d). -/
theorem pay_apply (pb : Vec Ideal S64x1 .i32) (x : Vec Ideal S64x200x128 .f32) (b : Fin 64) (i : Fin 200) (d : Fin 128) :
    k0_pay1 (F := Ideal) pb x (ix3 b i d)
      = x (ix3 b i d) * leftMask (pb (ix2 b (0 : Fin 1))) i.val
        + x (ix3 b (back 1 i) d) * atMask (pb (ix2 b (0 : Fin 1))) (back 1 i).val
        + x (ix3 b (back 2 i) d) * rightMask (pb (ix2 b (0 : Fin 1))) (back 2 i).val := by
  rw [pay_eq]
  show x (ix3 b i d) * lanes (leftV pb) (ix3 b i d)
      + dynamicRotate 1 1#32 none (mulf x (lanes (atV pb))) rotates_S64x200x128_d1 (ix3 b i d)
      + dynamicRotate 1 2#32 none (mulf x (lanes (rightV pb))) rotates_S64x200x128_d1 (ix3 b i d) = _
  rw [rotate_cols_apply _ 1#32 _ b i (back 1 i) d rfl, rotate_cols_apply _ 2#32 _ b i (back 2 i) d rfl]
  show x (ix3 b i d) * lanes (leftV pb) (ix3 b i d)
      + x (ix3 b (back 1 i) d) * lanes (atV pb) (ix3 b (back 1 i) d)
      + x (ix3 b (back 2 i) d) * lanes (rightV pb) (ix3 b (back 2 i) d) = _
  unfold lanes
  rw [cast_bcast_apply, cast_bcast_apply, cast_bcast_apply, leftV_apply, atV_apply, rightV_apply]

/-! ## From the blocks to the array -/

variable (m : (ℓ : Loc nD τ sig) → Buf (Elt Ideal) ℓ) (ρ : Dev nD → PrngReg)

theorem zero3 : (![0, 0, 0] : Fin 3 → Nat) = fun _ => 0 := funext fun a => by fin_cases a <;> rfl
theorem zero2 : (![0, 0] : Fin 2 → Nat) = fun _ => 0 := funext fun a => by fin_cases a <;> rfl

/-- The positions as the region finds them: the [4096] argument viewed as a [4096, 1] column. -/
theorem positions_eq (c : Dev nD) :
    (V m c main_v0 : S4096x1.Idx → BitVec 32) = shapeCast S4096x1 (m ((c : Thread nD τ).loc main_arg1)) shapeCasts_S4096_S4096x1 := by
  dsimp only [Gen.V, Gen.hostOps0]
  after_results
  rfl

/-- The index maps over the 64 points: the three windows move together along the rows and never along the
    columns or lanes, and the row-block index stays below 64. -/
theorem idx_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 2) = win0_2.index t (0 : Fin 3) ∧ win0_1.index t (1 : Fin 2) = 0
    ∧ win0_2.index t (1 : Fin 3) = 0 ∧ win0_2.index t (2 : Fin 3) = 0 ∧ win0_2.index t (0 : Fin 3) ≤ 63 :=
  (by decide +kernel : ∀ t : Fin grid0.N, _)

/-- Every block of 64 rows is some point's. -/
theorem idx_onto : ∀ q : Fin 64, ∃ t : Fin cfg0.N, win0_2.index t = ![q.val, 0, 0] :=
  (by decide +kernel : ∀ q : Fin 64, ∃ t : Fin grid0.N, win0_2.index t = ![q.val, 0, 0])

/-- WHAT POINT t WRITES BACK is block t of the sequence operator of the two arguments. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  rw [Value.flushed2]
  unfold out0_2
  rw [View.canon_unit_zero zero3]
  simp only [View.ld_unit_zero (S := S64x200x128) zero3, View.ld_unit_zero (S := S64x1) zero2]
  obtain ⟨e0, e1, e2, e3, e4, e5, e6, e7⟩ := idx_facts t
  funext j
  obtain ⟨b, i, d, rfl⟩ : ∃ (b : Fin 64) (i : Fin 200) (d : Fin 128), j = ix3 b i d := ⟨j 0, j 1, j 2, eq_ix3 j⟩
  -- the row of the array this row of the block is
  have hB : win0_2.index t (0 : Fin 3) * 64 + b.val < 4096 := by have := b.isLt; omega
  -- the block of x at a column of this row and lane
  have hX : ∀ i' : Fin 200, iblk m c 0 t (ix3 b i' d)
      = m ((c : Thread nD τ).loc main_arg0) (ix3 (⟨win0_2.index t (0 : Fin 3) * 64 + b.val, hB⟩ : Fin 4096) i' d) := by
    intro i'
    show V m c main_arg0 (((cfg0.win 0).blk t).view.emb (ix3 b i' d)) = _
    rw [V_main_arg0]
    refine congrArg _ (funext fun a => Fin.ext ?_)
    match a with
    | ⟨0, _⟩ => show win0_0.index t (0 : Fin 3) * 64 + 1 * b.val = win0_2.index t (0 : Fin 3) * 64 + b.val; omega
    | ⟨1, _⟩ => show win0_0.index t (1 : Fin 3) * 200 + 1 * i'.val = i'.val; omega
    | ⟨2, _⟩ => show win0_0.index t (2 : Fin 3) * 128 + 1 * d.val = d.val; omega
  -- the block of positions at this row
  have hP : iblk m c 1 t (ix2 b (0 : Fin 1))
      = m ((c : Thread nD τ).loc main_arg1) (ix1 (⟨win0_2.index t (0 : Fin 3) * 64 + b.val, hB⟩ : Fin 4096)) := by
    show V m c main_v0 (((cfg0.win 1).blk t).view.emb (ix2 b (0 : Fin 1))) = _
    rw [positions_eq]
    refine shapeCast_apply _ _ _ (ix1 (⟨win0_2.index t (0 : Fin 3) * 64 + b.val, hB⟩ : Fin 4096)) ?_
    rw [Shape.rowMajor_val_one, Shape.rowMajor_val_two]
    show win0_2.index t (0 : Fin 3) * 64 + b.val
      = (win0_1.index t (0 : Fin 2) * 64 + 1 * b.val) * 1 + (win0_1.index t (1 : Fin 2) * 1 + 1 * 0)
    omega
  -- where the output block's entry lands in the array
  have hE : ((cfg0.win 2).blk t).view.emb (ix3 b i d)
      = ix3 (⟨win0_2.index t (0 : Fin 3) * 64 + b.val, hB⟩ : Fin 4096) i d := by
    funext a; refine Fin.ext ?_
    match a with
    | ⟨0, _⟩ => show win0_2.index t (0 : Fin 3) * 64 + 1 * b.val = win0_2.index t (0 : Fin 3) * 64 + b.val; omega
    | ⟨1, _⟩ => show win0_2.index t (1 : Fin 3) * 200 + 1 * i.val = i.val; omega
    | ⟨2, _⟩ => show win0_2.index t (2 : Fin 3) * 128 + 1 * d.val = d.val; omega
  show k0_pay1 (F := Ideal) (iblk m c 1 t) (iblk m c 0 t) (ix3 b i d)
    = G (m ((c : Thread nD τ).loc main_arg0)) (m ((c : Thread nD τ).loc main_arg1)) (((cfg0.win 2).blk t).view.emb (ix3 b i d))
  rw [hE, G_apply]
  refine (pay_apply (iblk m c 1 t) (iblk m c 0 t) b i d).trans ?_
  rw [hX i, hX (back 1 i), hX (back 2 i), hP]

/-- An index of the array is in point t's block iff each coordinate is in the block's range on its axis. -/
theorem mem_blk (t : Fin cfg0.N) (i : S4096x200x128.Idx) :
    i ∈ ((cfg0.win 2).blk t).view.set ↔ ∀ a : Fin 3, win0_2.index t a * S64x200x128.size a ≤ (i a).val
      ∧ (i a).val < win0_2.index t a * S64x200x128.size a + S64x200x128.size a := by
  show i ∈ ((View.whole main_v1).slice (win0_2.rect t)).set ↔ _
  rw [View.set_slice_whole, Rect.mem_set_unit]
  exact Iff.rfl

/-- The 64 blocks tile the array: row r lies in the block of index r / 64. -/
theorem cover (i : S4096x200x128.Idx) :
    ∃ t : Fin cfg0.N, (cfg0.win 2).flush t = true ∧ i ∈ ((cfg0.win 2).blk t).view.set := by
  have hi0 : (i 0).val < 4096 := (i 0).isLt
  have hi1 : (i 1).val < 200 := (i 1).isLt
  have hi2 : (i 2).val < 128 := (i 2).isLt
  obtain ⟨t, ht⟩ := idx_onto ⟨(i 0).val / 64, by omega⟩
  have q0 : win0_2.index t (0 : Fin 3) = (i 0).val / 64 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 64 ≤ (i 0).val ∧ (i 0).val < win0_2.index t (0 : Fin 3) * 64 + 64; omega
  | ⟨1, _⟩ => show win0_2.index t (1 : Fin 3) * 200 ≤ (i 1).val ∧ (i 1).val < win0_2.index t (1 : Fin 3) * 200 + 200; omega
  | ⟨2, _⟩ => show win0_2.index t (2 : Fin 3) * 128 ≤ (i 2).val ∧ (i 2).val < win0_2.index t (2 : Fin 3) * 128 + 128; omega

/-- THE ARRAY after the run is the sequence operator of the two arguments. -/
theorem final (c : Dev nD) : (dats m 0 c).arrAt 2 cfg0.N
    = G (m ((c : Thread nD τ).loc main_arg0)) (m ((c : Thread nD τ).loc main_arg1)) :=
  (dats m 0 c).arrAt_eq_of_cover 2 _ (fun t _ => flushed_eq m c t) cover

/-- The kernel's run: it ends with its result array at the sequence operator of its arguments, the arguments unchanged. -/
theorem run : θ_run defs (onTc (τ := τ) (main (F := Ideal))) ⟨m, fun _ => 0, ρ⟩ fun r => ∀ c : Dev nD,
      r.2.mem ((c : Thread nD τ).loc main_v1) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.SeqValue

end
-- ==== Proof.RefRun.lean ====
/-
  The reference's run: it ends with its result at the composition of its 82 operations, read as the stages of RefRead.

  The operation list is cut once, before the first join of two slices (operation 73). None of the nine operations
  after the cut writes a buffer the first 73 wrote, so what the first 73 leave in the five buffers the tail reads
  (the first product and its two slices, the right mask, the array x) is what the WHOLE list leaves there, and that
  is each buffer's stage, operation by operation, with no join inside it. The tail on any contents is one explicit
  term: the two joins of slices and the two sums. Substituting the five stages into it gives the last stage.
-/
import proofs.«405079_j28106265985064_1_alg».proof.Proof.RefRunBase
import proofs.«405079_j28106265985064_1_alg».proof.Proof.RefRead
import Idealize.ShloMosaic.Lib.StableHlo.Run
import Idealize.ShloMosaic.Lib.Pipeline.Frame

noncomputable section

namespace Cert.ReferenceIdeal.SeqRunCut

open Cert.ReferenceIdeal Cert.ReferenceIdeal.Gen Cert.ReferenceIdeal.SeqRun Cert.ReferenceIdeal.SeqRead
open Idealize.ShloMosaic Idealize.ShloMosaic.TcCoe Idealize.SL.Sem Idealize.ShloMosaic.StableHlo

variable {F : FTy → Type} [FloatOps F]

/-- The last nine operations: the join of the first roll's two slices, the third product and its two slices, the
    join of those, and the two sums. -/
abbrev tailOps : List (HloOp τ sig (Elt F)) :=
  [ TRef.binary (TRef.of (T := ⟨S4096x1x128, .f32⟩) main_call5_v0) (TRef.of (T := ⟨S4096x199x128, .f32⟩) main_call5_v1) (TRef.of (T := ⟨S4096x200x128, .f32⟩) main_v39) (fun a b => concatenate S4096x200x128 1 [⟨S4096x1x128, a⟩, ⟨S4096x199x128, b⟩] concatenates_S4096x1x128_S4096x199x128_S4096x200x128_d1),
    unary main_v32 main_v40 (broadcastInDim S4096x200x1 ![0, 1] bcast_S4096x200_S4096x200x1_0_1 : (⟨S4096x200, .f32⟩ : BufTy).Contents (Elt F) → (⟨S4096x200x1, .f32⟩ : BufTy).Contents (Elt F)),
    unary main_v40 main_v41 (broadcastInDim S4096x200x128 ![0, 1, 2] bcast_S4096x200x1_S4096x200x128_0_1_2 : (⟨S4096x200x1, .f32⟩ : BufTy).Contents (Elt F) → (⟨S4096x200x128, .f32⟩ : BufTy).Contents (Elt F)),
    binary main_arg0 main_v41 main_v42 (mulf : (⟨S4096x200x128, .f32⟩ : BufTy).Contents (Elt F) → (⟨S4096x200x128, .f32⟩ : BufTy).Contents (Elt F) → (⟨S4096x200x128, .f32⟩ : BufTy).Contents (Elt F)),
    TRef.unary (TRef.of (T := ⟨S4096x200x128, .f32⟩) main_v42) (TRef.of (T := ⟨S4096x2x128, .f32⟩) main_call6_v0) (extractStridedSlice S4096x2x128 ![0, 198, 0] · slices_S4096x200x128_S4096x2x128_0_198_0),
    TRef.unary (TRef.of (T := ⟨S4096x200x128, .f32⟩) main_v42) (TRef.of (T := ⟨S4096x198x128, .f32⟩) main_call6_v1) (extractStridedSlice S4096x198x128 ![0, 0, 0] · slices_S4096x200x128_S4096x198x128_0_0_0),
    TRef.binary (TRef.of (T := ⟨S4096x2x128, .f32⟩) main_call6_v0) (TRef.of (T := ⟨S4096x198x128, .f32⟩) main_call6_v1) (TRef.of (T := ⟨S4096x200x128, .f32⟩) main_v43) (fun a b => concatenate S4096x200x128 1 [⟨S4096x2x128, a⟩, ⟨S4096x198x128, b⟩] concatenates_S4096x2x128_S4096x198x128_S4096x200x128_d1),
    binary main_v35 main_v39 main_v44 (addf : (⟨S4096x200x128, .f32⟩ : BufTy).Contents (Elt F) → (⟨S4096x200x128, .f32⟩ : BufTy).Contents (Elt F) → (⟨S4096x200x128, .f32⟩ : BufTy).Contents (Elt F)),
    binary main_v44 main_v43 main_v45 (addf : (⟨S4096x200x128, .f32⟩ : BufTy).Contents (Elt F) → (⟨S4096x200x128, .f32⟩ : BufTy).Contents (Elt F) → (⟨S4096x200x128, .f32⟩ : BufTy).Contents (Elt F)) ]

/-- The list is its first 73 operations followed by the tail. -/
theorem ops_cut : (ops : List (HloOp τ sig (Elt F))) = ops.take 73 ++ tailOps :=
  (List.take_append_drop 73 (ops (F := F))).symm

/-- What the tail computes from the contents of the five buffers it reads. -/
def tailTerm (a35 : (⟨S4096x200x128, .f32⟩ : BufTy).Contents (Elt F)) (s0 : (⟨S4096x1x128, .f32⟩ : BufTy).Contents (Elt F))
    (s1 : (⟨S4096x199x128, .f32⟩ : BufTy).Contents (Elt F)) (x0 : (⟨S4096x200x128, .f32⟩ : BufTy).Contents (Elt F))
    (a32 : (⟨S4096x200, .f32⟩ : BufTy).Contents (Elt F)) : (⟨S4096x200x128, .f32⟩ : BufTy).Contents (Elt F) :=
  addf (addf a35 (concatenate S4096x200x128 1 [⟨S4096x1x128, s0⟩, ⟨S4096x199x128, s1⟩] concatenates_S4096x1x128_S4096x199x128_S4096x200x128_d1))
    (concatenate S4096x200x128 1
      [⟨S4096x2x128, extractStridedSlice S4096x2x128 ![0, 198, 0]
          (mulf x0 (broadcastInDim S4096x200x128 ![0, 1, 2] bcast_S4096x200x1_S4096x200x128_0_1_2
            (broadcastInDim S4096x200x1 ![0, 1] bcast_S4096x200_S4096x200x1_0_1 a32))) slices_S4096x200x128_S4096x2x128_0_198_0⟩,
       ⟨S4096x198x128, extractStridedSlice S4096x198x128 ![0, 0, 0]
          (mulf x0 (broadcastInDim S4096x200x128 ![0, 1, 2] bcast_S4096x200x1_S4096x200x128_0_1_2
            (broadcastInDim S4096x200x1 ![0, 1] bcast_S4096x200_S4096x200x1_0_1 a32))) slices_S4096x200x128_S4096x198x128_0_0_0⟩]
      concatenates_S4096x2x128_S4096x198x128_S4096x200x128_d1)

/-- The five stages, put through the tail, are the last stage. -/
theorem tailTerm_stages (x0 : (⟨S4096x200x128, .f32⟩ : BufTy).Contents (Elt F)) (x1 : (⟨S4096, .i32⟩ : BufTy).Contents (Elt F)) :
    tailTerm (val_main_v35 (F := F) x0 x1) (val_main_call5_v0 (F := F) x0 x1) (val_main_call5_v1 (F := F) x0 x1) x0
      (val_main_v32 (F := F) x1) = val_main_v45 (F := F) x0 x1 := rfl

section Tail
variable (W : Valuation τ sig (Elt F))

/-- The tail's result on any contents. -/
theorem tail_result : after tailOps W (Proc.devRef .tc main_v45)
    = tailTerm (W (Proc.devRef .tc main_v35)) (W (Proc.devRef .tc main_call5_v0)) (W (Proc.devRef .tc main_call5_v1))
        (W (Proc.devRef .tc main_arg0)) (W (Proc.devRef .tc main_v32)) := by
  unfold tailTerm
  after_results
  rfl

/-- The tail writes none of the buffers it reads from before the cut, nor the arguments. -/
theorem tail_keep_v35 : after tailOps W (Proc.devRef .tc main_v35) = W (Proc.devRef .tc main_v35) := by after_results_simp
theorem tail_keep_call5_v0 : after tailOps W (Proc.devRef .tc main_call5_v0) = W (Proc.devRef .tc main_call5_v0) := by after_results_simp
theorem tail_keep_call5_v1 : after tailOps W (Proc.devRef .tc main_call5_v1) = W (Proc.devRef .tc main_call5_v1) := by after_results_simp
theorem tail_keep_v32 : after tailOps W (Proc.devRef .tc main_v32) = W (Proc.devRef .tc main_v32) := by after_results_simp
theorem tail_keep_arg0 : after tailOps W (Proc.devRef .tc main_arg0) = W (Proc.devRef .tc main_arg0) := by after_results_simp
theorem tail_keep_arg1 : after tailOps W (Proc.devRef .tc main_arg1) = W (Proc.devRef .tc main_arg1) := by after_results_simp

end Tail

variable (m : (ℓ : Loc nD τ sig) → Buf (Elt F) ℓ) (c : Dev nD)

/-! ## What the whole list leaves in the buffers without a join in their terms: their stages -/

set_option maxRecDepth 8192 in
set_option maxHeartbeats 4000000 in
theorem whole_v35 : after ops (launchContents m c) (Proc.devRef .tc main_v35)
    = val_main_v35 (F := F) (m ((c.tc : Thread nD τ).loc main_arg0)) (m ((c.tc : Thread nD τ).loc main_arg1)) := by
  after_results_simp <;> rfl

set_option maxRecDepth 8192 in
set_option maxHeartbeats 4000000 in
theorem whole_call5_v0 : after ops (launchContents m c) (Proc.devRef .tc main_call5_v0)
    = val_main_call5_v0 (F := F) (m ((c.tc : Thread nD τ).loc main_arg0)) (m ((c.tc : Thread nD τ).loc main_arg1)) := by
  after_results_simp <;> rfl

set_option maxRecDepth 8192 in
set_option maxHeartbeats 4000000 in
theorem whole_call5_v1 : after ops (launchContents m c) (Proc.devRef .tc main_call5_v1)
    = val_main_call5_v1 (F := F) (m ((c.tc : Thread nD τ).loc main_arg0)) (m ((c.tc : Thread nD τ).loc main_arg1)) := by
  after_results_simp <;> rfl

set_option maxRecDepth 8192 in
set_option maxHeartbeats 4000000 in
theorem whole_v32 : after ops (launchContents m c) (Proc.devRef .tc main_v32)
    = val_main_v32 (F := F) (m ((c.tc : Thread nD τ).loc main_arg1)) := by
  after_results_simp <;> rfl

set_option maxRecDepth 8192 in
theorem whole_arg0 : after ops (launchContents m c) (Proc.devRef .tc main_arg0) = m ((c.tc : Thread nD τ).loc main_arg0) := by
  after_results_simp <;> rfl

set_option maxRecDepth 8192 in
theorem whole_arg1 : after ops (launchContents m c) (Proc.devRef .tc main_arg1) = m ((c.tc : Thread nD τ).loc main_arg1) := by
  after_results_simp <;> rfl

/-- What the first 73 operations leave in a buffer the tail does not write is what the whole list leaves there. -/
theorem head_eq_whole (b : Ref sig .tc)
    (hkeep : ∀ W : Valuation τ sig (Elt F), after tailOps W (Proc.devRef .tc b) = W (Proc.devRef .tc b)) :
    after (ops.take 73) (launchContents m c) (Proc.devRef .tc b) = after ops (launchContents m c) (Proc.devRef .tc b) := by
  conv_rhs => rw [ops_cut, StableHlo.after_append]
  exact (hkeep _).symm

/-- THE RESULT of the whole list is the last stage of the arguments. -/
theorem whole_v45 : after ops (launchContents m c) (Proc.devRef .tc main_v45)
    = val_main_v45 (F := F) (m ((c.tc : Thread nD τ).loc main_arg0)) (m ((c.tc : Thread nD τ).loc main_arg1)) := by
  rw [ops_cut, StableHlo.after_append, tail_result,
    head_eq_whole m c main_v35 tail_keep_v35, head_eq_whole m c main_call5_v0 tail_keep_call5_v0,
    head_eq_whole m c main_call5_v1 tail_keep_call5_v1, head_eq_whole m c main_arg0 tail_keep_arg0,
    head_eq_whole m c main_v32 tail_keep_v32,
    whole_v35, whole_call5_v0, whole_call5_v1, whole_arg0, whole_v32]
  exact tailTerm_stages _ _

/-- On every device, from any memory with zero counters: every weakly fair execution of the reference's @main
    terminates with its result at the last stage of the arguments and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v45)
          = val_main_v45 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v45).trans (whole_v45 m c),
      (h c main_arg0).trans (whole_arg0 m c), (h c main_arg1).trans (whole_arg1 m c)⟩)
    (run_seq scopedRefs_eq scopedSems_eq defs main (fun _ => ops) main_eq (fun _ => ops_sub) m ρ)

end Cert.ReferenceIdeal.SeqRunCut

end
-- ==== Proof.RollOps.lean ====
/-
  A roll along the 200 columns written as two slices joined end to end, read at an index.

  Cutting the columns of a [4096, 200, 128] array at column n2 and joining the last n1 = 200 - n2 columns in front
  of the first n2 is the roll forward by n1: column i of the result is column i - n1 of the array, around the end.
  A column before n1 falls in the first piece (columns n2 … 199 of the array), a later one in the second
  (columns 0 … n2 - 1).
-/
import Idealize.ShloMosaic.Lib.Pipeline.Value
import Idealize.ShloMosaic.Lib.ValueIdx

noncomputable section

namespace Cert.SeqRoll

open Idealize.ShloMosaic Idealize.ShloMosaic.ValueIdx

variable {α : Type}

theorem roll_concat_apply {n1 n2 : ℕ} (hn : n2 + n1 = 200) (hn1 : 0 < n1) (hn2 : 0 < n2)
    (y : (⟨3, ![4096, 200, 128]⟩ : Shape).Idx → α)
    (h1 : (⟨3, ![4096, 200, 128]⟩ : Shape).Slices ![0, n2, 0] ⟨3, ![4096, n1, 128]⟩)
    (h2 : (⟨3, ![4096, 200, 128]⟩ : Shape).Slices ![0, 0, 0] ⟨3, ![4096, n2, 128]⟩)
    (hc : Shape.Concatenates [(⟨3, ![4096, n1, 128]⟩ : Shape), ⟨3, ![4096, n2, 128]⟩] ⟨3, ![4096, 200, 128]⟩ 1)
    (b : Fin 4096) (i k : Fin 200) (d : Fin 128) (hk : k.val = (i.val + 200 - n1 % 200) % 200) :
    concatenate ⟨3, ![4096, 200, 128]⟩ 1
        [⟨⟨3, ![4096, n1, 128]⟩, extractStridedSlice ⟨3, ![4096, n1, 128]⟩ ![0, n2, 0] y h1⟩,
         ⟨⟨3, ![4096, n2, 128]⟩, extractStridedSlice ⟨3, ![4096, n2, 128]⟩ ![0, 0, 0] y h2⟩] hc (ix3 b i d)
      = y (ix3 b k d) := by
  have hi200 : i.val < 200 := i.isLt
  by_cases hi : i.val < n1
  · -- the first piece: its column i is the array's column n2 + i
    refine (concatenate_pair_apply_left 1 _ _ hc (ix3 b i d) rfl (ix3 b (⟨i.val, hi⟩ : Fin n1) d) (fun a => ?_)).trans ?_
    · match a with
      | ⟨0, _⟩ => rfl
      | ⟨1, _⟩ => rfl
      | ⟨2, _⟩ => rfl
    · refine extractStridedSlice_apply ![0, n2, 0] y h1 (ix3 b (⟨i.val, hi⟩ : Fin n1) d) (ix3 b k d) (fun a => ?_)
      match a with
      | ⟨0, _⟩ => exact (Nat.zero_add _).symm
      | ⟨1, _⟩ => show k.val = n2 + i.val; omega
      | ⟨2, _⟩ => exact (Nat.zero_add _).symm
  · -- the second piece: its column i - n1 is the array's column i - n1
    have hlt : i.val - n1 < n2 := by omega
    refine (concatenate_pair_apply_right 1 _ _ hc (ix3 b i d) rfl rfl (ix3 b (⟨i.val - n1, hlt⟩ : Fin n2) d)
      (fun a ha => ?_) ?_).trans ?_
    · match a, ha with
      | ⟨0, _⟩, _ => rfl
      | ⟨1, _⟩, ha => exact absurd (Fin.ext rfl) ha
      | ⟨2, _⟩, _ => rfl
    · show i.val - n1 + n1 = i.val
      omega
    · refine extractStridedSlice_apply ![0, 0, 0] y h2 (ix3 b (⟨i.val - n1, hlt⟩ : Fin n2) d) (ix3 b k d) (fun a => ?_)
      match a with
      | ⟨0, _⟩ => exact (Nat.zero_add _).symm
      | ⟨1, _⟩ => show k.val = 0 + (i.val - n1); omega
      | ⟨2, _⟩ => exact (Nat.zero_add _).symm

end Cert.SeqRoll

end
-- ==== Proof.LibGatherRowTake.lean ====
/-
  A gather that takes ONE entry from EACH ROW of a table, read at an index.

  For a table x of shape [N, K] and start indices idx of shape [N, 1, 1], the gather whose operand axis 0 is a
  batching axis (paired with axis 0 of the start indices), whose operand axis 1 is collapsed and named by the
  start index, with slice sizes [1, 1] and the index vector on axis 2, has result shape [N, 1]. Its entry (b, 0)
  is x at row b and at the column idx[b, 0, 0] read as a signed integer and clamped into [0, K - 1]: the row
  comes from the batching coordinate, the column from the clamped start, and there is no offset.
  This is what "take along axis 1" of a [N, K] table at an [N, 1] array of positions lowers to.
-/
import Idealize.ShloMosaic.PureOps.ShapeOps
import Idealize.ShloMosaic.Lib.ValueIdx

namespace Idealize.ShloMosaic.ValueIdx

open Idealize.ShloMosaic

section RowTake
variable {α : Type}

/-- The dimension numbers of the row-wise take for a table [N, K], start indices [N, 1, 1] and result [N, 1];
    their conditions are decided on a program's literal shapes. -/
abbrev rowTakeDims (N K : Nat)
    (wf : GatherDims.WF ⟨2, ![N, K]⟩ ⟨3, ![N, 1, 1]⟩ ⟨2, ![N, 1]⟩ [] [1] [0] [1] [0] 2 ![1, 1]) :
    GatherDims ⟨2, ![N, K]⟩ ⟨3, ![N, 1, 1]⟩ ⟨2, ![N, 1]⟩ where
  offsetDims := []
  collapsedSliceDims := [1]
  operandBatchingDims := [0]
  startIndicesBatchingDims := [0]
  startIndexMap := [1]
  indexVectorDim := 2
  sliceSizes := ![1, 1]
  wf := wf

/-- The start-indices index [b, 0, 0] of result index (b, 0). -/
abbrev rowTakeIdx {N : Nat} (y : (⟨2, ![N, 1]⟩ : Shape).Idx) : (⟨3, ![N, 1, 1]⟩ : Shape).Idx :=
  fun a => match a with | ⟨0, _⟩ => ⟨(y 0).val, idx2_lt0 y⟩ | ⟨1, _⟩ => ⟨0, Nat.one_pos⟩ | ⟨2, _⟩ => ⟨0, Nat.one_pos⟩

/-- THE ROW-WISE TAKE READ AT (b, 0): the table at row b, column the start index idx[b, 0, 0] read signed and
    clamped into [0, K - 1]. -/
theorem gather_rowTake_apply {N K w : Nat} (hK : 0 < K)
    (wf : GatherDims.WF ⟨2, ![N, K]⟩ ⟨3, ![N, 1, 1]⟩ ⟨2, ![N, 1]⟩ [] [1] [0] [1] [0] 2 ![1, 1])
    (x : (⟨2, ![N, K]⟩ : Shape).Idx → α) (idx : IVec ⟨3, ![N, 1, 1]⟩ w) (y : (⟨2, ![N, 1]⟩ : Shape).Idx) :
    Host.gather (rowTakeDims N K wf) x idx y
      = x (ix2 (⟨(y 0).val, idx2_lt0 y⟩ : Fin N) (⟨min (idx (rowTakeIdx y)).toInt.toNat (K - 1), by omega⟩ : Fin K)) := by
  unfold Host.gather
  congr 1
  funext a
  refine Fin.ext ?_
  show (rowTakeDims N K wf).start y idx a + (rowTakeDims N K wf).batchCoord y a + (rowTakeDims N K wf).offCoord y a = _
  match a with
  | ⟨0, _⟩ =>
    -- the row: no start on a batching axis, no offset; the batching coordinate is the result's row
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (⟨0, by decide⟩ : Fin 2) ∈ (rowTakeDims N K wf).operandBatchingDims from List.mem_singleton.mpr rfl)]
    rfl
  | ⟨1, _⟩ =>
    -- the column: the clamped start; axis 1 is neither a batching nor an offset axis
    rw [GatherDims.batchCoord_eq_zero _ _ _ (fun h => absurd (congrArg Fin.val (List.mem_singleton.mp h)) Nat.one_ne_zero),
      GatherDims.offCoord_eq_zero _ _ _ (fun h => ((GatherDims.mem_sKept _ _).mp h).1 (List.mem_singleton.mpr rfl))]
    simp only [Nat.add_zero]
    unfold GatherDims.start
    rw [dif_pos (show (⟨1, by decide⟩ : Fin 2) ∈ (rowTakeDims N K wf).startIndexMap from List.mem_singleton.mpr rfl)]
    have hsi : (rowTakeDims N K wf).siIdx y ⟨List.idxOf (⟨1, by decide⟩ : Fin 2) (rowTakeDims N K wf).startIndexMap,
        List.idxOf_lt_length_iff.2 (List.mem_singleton.mpr rfl)⟩ = rowTakeIdx y := by
      funext b; refine Fin.ext ?_
      match b with
      | ⟨0, _⟩ => rfl
      | ⟨1, _⟩ => exact Nat.lt_one_iff.mp (Fin.isLt _)  -- a coordinate on a unit axis is 0
      | ⟨2, _⟩ => rfl
    rw [hsi]
    rfl

end RowTake

end Idealize.ShloMosaic.ValueIdx
-- ==== Proof.LibReduceAnd.lean ====
/-
  An all-reduce by "and" over ones is one.

  The library reads a 1 result back (every operand bit that reduces into it was 1). This is the other direction:
  when the initial bit is 1 and every operand bit that reduces into result index j is 1, the result at j is 1.
  A host reduce is a left fold from the initial value over the operand positions that reduce into j, so the
  statement is the fold's.
-/
import Idealize.ShloMosaic.Lib.ReduceAll

namespace Idealize.ShloMosaic

namespace IntOp

/-- A left fold by "and" from 1 over bits that are all 1 is 1. -/
theorem foldl_andi_of_forall {ι : Type} (f : ι → BitVec 1) :
    ∀ (l : List ι) (init : BitVec 1), init = 1#1 → (∀ n ∈ l, f n = 1#1) → l.foldl (fun r n => andi r (f n)) init = 1#1
  | [], _, h, _ => h
  | a :: l, _, h, hl =>
    foldl_andi_of_forall f l _ (andi_eq_one.2 ⟨h, hl a List.mem_cons_self⟩) (fun n hn => hl n (List.mem_cons_of_mem _ hn))

end IntOp

namespace Host

variable {s t u : Shape} {axes : List (Fin s.rank)}

/-- A reduce by "and" from the bit 1 is 1 at j when every operand bit that reduces into j is 1. -/
theorem reduce_andi_of_forall (x : s.Idx → BitVec 1) (init : u.Idx → BitVec 1) (h : s.ReducesTo axes t) (hu : 0 < u.numel)
    (j : t.Idx) (hinit : init (Shape.Idx.first hu) = 1#1) (hx : ∀ i, h.drop i = j → x i = 1#1) :
    Host.reduce IntOp.andi x init h hu j = 1#1 := by
  unfold Host.reduce
  refine IntOp.foldl_andi_of_forall (fun n => x (s.rowMajor.symm n)) _ _ hinit (fun n hn => hx _ ?_)
  exact of_decide_eq_true (List.mem_filter.1 hn).2

end Host

end Idealize.ShloMosaic
-- ==== Proof.RefValue.lean ====
/-
  What the reference computes: for nonnegative positions, the sequence operator of Spec.lean, index by index.

  Row b has the position p = pos b. The reference forms the one-hot row e i = [p = ι], reads back v = e at position p
  (through a wrap of negative positions, a range test, a row-wise gather and a fill for positions out of range),
  builds the left and right masks from e and v (Masks.lean's primed forms), multiplies x by the left mask, by the
  one-hot row and by the right mask along the lanes, rolls the second product by one column and the third by two
  (each roll two slices joined end to end), and adds.
  With 0 ≤ p the wrap does nothing; if moreover p ≤ 199 the range test passes, the gather reads column p of the
  one-hot row, and v = 1. The primed masks then equal the plain ones (Masks.lean), the one-hot row is the "at" mask,
  and the three terms are the operator's.
-/
import proofs.«405079_j28106265985064_1_alg».proof.Proof.RefRead
import proofs.«405079_j28106265985064_1_alg».proof.Proof.Spec
import proofs.«405079_j28106265985064_1_alg».proof.Proof.RollOps
import proofs.«405079_j28106265985064_1_alg».proof.Proof.LibGatherRowTake
import proofs.«405079_j28106265985064_1_alg».proof.Proof.LibReduceAnd
import Idealize.ShloMosaic.Lib.Pipeline.Value
import Idealize.ShloMosaic.PureOps.Reduce
import Idealize.ShloMosaic.Lib.IdealHost

noncomputable section

namespace Cert.ReferenceIdeal.SeqRef

open Cert.ReferenceIdeal Cert.ReferenceIdeal.Gen Cert.ReferenceIdeal.SeqRead Idealize.ShloMosaic
open Idealize.ShloMosaic.ValueIdx Cert.SeqMasks Cert.SeqSpec Cert.SeqRoll

variable (x0 : (⟨S4096x200x128, .f32⟩ : BufTy).Contents (Elt Ideal)) (x1 : (⟨S4096, .i32⟩ : BufTy).Contents (Elt Ideal))

/-! ## The one-hot row, the room test, the value read back -/

/-- The one-hot row at (b, i) is [p = ι]. -/
theorem onehot_apply (b : Fin 4096) (i : Fin 200) :
    val_main_v0 (F := Ideal) x1 (ix2 b i) = bitE (IntOp.cmpi .eq (x1 (ix1 b)) (col i.val)) := by
  have e : idx_main_call0_v0 (idx_main_call0_v2 (ix2 b i)) = ix1 b := funext fun a => match a with | ⟨0, _⟩ => rfl
  rw [val_main_v0_apply, val_main_call0_v4_apply, val_main_call0_v2_apply, val_main_call0_v0_apply, e,
    val_main_call0_v3_apply, val_main_call0_v1_apply]
  rfl

/-- [p ≤ 197] at row b. -/
theorem valid_apply (b : Fin 4096) :
    val_main_v8 (F := Ideal) x1 (ix2 b (0 : Fin 1)) = bitE (validBit (x1 (ix1 b))) := by
  have e : idx_main_v7 (ix2 b (0 : Fin 1)) = ix1 b := funext fun a => match a with | ⟨0, _⟩ => rfl
  rw [val_main_v8_apply, val_main_v7_apply, e, val_main_v6_apply, val_main_v5_apply, val_main_c_apply]
  rfl

/-- The position after the wrap of negative positions, at any index of row b of the [4096, 1, 1] array. -/
theorem wrapped_apply (j : S4096x1x1.Idx) (b : Fin 4096) (hb : (j 0).val = b.val) :
    val_main_call1_v5 (F := Ideal) x1 j
      = Scalar.select (IntOp.cmpi .slt (x1 (ix1 b)) 0#32) (IntOp.addi (x1 (ix1 b)) 200#32) (x1 (ix1 b)) := by
  have e : idx_main_v1 (idx_main_call1_v5 j) = ix1 b := funext fun a => match a with
    | ⟨0, _⟩ => Fin.ext (by
        have h1 : (j 1).val < 1 := (j 1).isLt
        have h2 : (j 2).val < 1 := (j 2).isLt
        show (((j 0).val * 1 + (j 1).val) * 1 + (j 2).val) / 1 = b.val
        omega)
  rw [val_main_call1_v5_apply, val_main_call1_v4_apply, val_main_call1_v1_apply, val_main_call1_v3_apply,
    val_main_v1_apply, e, val_main_call1_v0_apply, val_main_call1_c_apply, val_main_call1_v2_apply,
    val_main_call1_c_0_apply]

/-- A position in [0, 199] passes the range test: the "and"-reduction over the one index of its row is 1. -/
theorem inrange_apply (b : Fin 4096) (h0 : 0 ≤ (x1 (ix1 b)).toInt) (h1 : (x1 (ix1 b)).toInt ≤ 199) :
    val_main_call1_v12 (F := Ideal) x1 (ix2 b (0 : Fin 1)) = 1#1 := by
  unfold val_main_call1_v12
  refine Host.reduce_andi_of_forall _ _ _ _ _ rfl (fun j hj => ?_)
  have hrow : (j 0).val = b.val := by
    have hv := Shape.ReducesTo.drop_apply_val_of_eq reducesTo_S4096x1x1_S4096x1_d2 j 0 0
    rw [hj] at hv
    exact hv.symm
  rw [val_main_call1_v11_apply, val_main_call1_v7_apply, val_main_call1_v10_apply, wrapped_apply x1 j b hrow,
    wrap_of_nonneg _ h0, val_main_call1_v6_apply, val_main_call1_c_2_apply, val_main_call1_v9_apply,
    val_main_call1_v8_apply, val_main_call1_c_1_apply]
  exact inRange_of _ h0 h1

/-- The gather reads the one-hot row of b at the wrapped position, read signed and clamped to the last column. -/
theorem take_apply (b : Fin 4096) (k : Fin 200)
    (hk : k.val = min (val_main_call1_v5 (F := Ideal) x1 (ix3 b (0 : Fin 1) (0 : Fin 1))).toInt.toNat 199) :
    val_main_call1_v13 (F := Ideal) x1 (ix2 b (0 : Fin 1)) = val_main_v0 (F := Ideal) x1 (ix2 b k) := by
  unfold val_main_call1_v13
  have e : rowTakeIdx (ix2 b (0 : Fin 1)) = ix3 b (0 : Fin 1) (0 : Fin 1) :=
    funext fun a => match a with | ⟨0, _⟩ => rfl | ⟨1, _⟩ => rfl | ⟨2, _⟩ => rfl
  have h := gather_rowTake_apply (N := 4096) (K := 200) (by decide) gather_S4096x200_S4096x1x1_S4096x1_n_1_0_0_1_2_11_wf
    (val_main_v0 (F := Ideal) x1) (val_main_call1_v5 (F := Ideal) x1) (ix2 b (0 : Fin 1))
  refine h.trans (congrArg (fun q => val_main_v0 (F := Ideal) x1 (ix2 b q)) (Fin.ext ?_))
  show min (val_main_call1_v5 (F := Ideal) x1 (rowTakeIdx (ix2 b (0 : Fin 1)))).toInt.toNat (200 - 1) = k.val
  rw [e, hk]

/-- THE VALUE READ BACK is 1 for a position in [0, 199]. -/
theorem readback_eq_one (b : Fin 4096) (h0 : 0 ≤ (x1 (ix1 b)).toInt) (h1 : (x1 (ix1 b)).toInt ≤ 199) :
    val_main_v4 (F := Ideal) x1 (ix2 b (0 : Fin 1)) = 1 := by
  have hw : val_main_call1_v5 (F := Ideal) x1 (ix3 b (0 : Fin 1) (0 : Fin 1)) = x1 (ix1 b) := by
    rw [wrapped_apply x1 _ b rfl]; exact wrap_of_nonneg _ h0
  obtain ⟨hlt, hcol⟩ := col_clamp (x1 (ix1 b)) h0 h1
  rw [val_main_v4_apply, inrange_apply x1 b h0 h1, select_one,
    take_apply x1 b ⟨min (x1 (ix1 b)).toInt.toNat 199, hlt⟩ (by rw [hw]), onehot_apply]
  show bitE (IntOp.cmpi .eq (x1 (ix1 b)) (col (min (x1 (ix1 b)).toInt.toNat 199))) = 1
  rw [hcol]
  exact bitE_of _ (IntOp.cmpi_eq.2 rfl)

/-! ## The two masks the reference builds -/

/-- The reference's left mask at (b, i) is the operator's. -/
theorem left_apply (b : Fin 4096) (i : Fin 200) (h0 : 0 ≤ (x1 (ix1 b)).toInt) :
    val_main_v30 (F := Ideal) x1 (ix2 b i) = leftMask (x1 (ix1 b)) i.val := by
  have e0 : idx_main_v29 (ix2 b i) = ix2 b (0 : Fin 1) := funext fun a => match a with | ⟨0, _⟩ => rfl | ⟨1, _⟩ => rfl
  have e1 : idx_main_v12 (ix2 b i) = ix2 b (0 : Fin 1) := funext fun a => match a with | ⟨0, _⟩ => rfl | ⟨1, _⟩ => rfl
  have e2 : idx_main_v1 (idx_main_v10 (ix2 b i)) = ix1 b := funext fun a => match a with | ⟨0, _⟩ => rfl
  have e3 : idx_main_v1 (idx_main_v15 (ix2 b i)) = ix1 b := funext fun a => match a with | ⟨0, _⟩ => rfl
  have c1 : val_main_v9 (F := Ideal) (ix2 b i) = col i.val := by
    rw [val_main_v9_apply, val_main_v3_apply, val_main_v2_apply]
  have c2 : val_main_v14 (F := Ideal) (ix2 b i) = col i.val := by
    rw [val_main_v14_apply, val_main_v3_apply, val_main_v2_apply]
  have p1 : val_main_v10 (F := Ideal) x1 (ix2 b i) = x1 (ix1 b) := by
    rw [val_main_v10_apply, val_main_v1_apply, e2]
  have p2 : val_main_v15 (F := Ideal) x1 (ix2 b i) = x1 (ix1 b) := by
    rw [val_main_v15_apply, val_main_v1_apply, e3]
  have z : val_main_call2_v0 (F := Ideal) (ix2 b i) = Ideal.ofBits .f32 0x00000000#32 := by
    rw [val_main_call2_v0_apply, val_main_cst_apply]; rfl
  rw [val_main_v30_apply, val_main_v29_apply, e0, valid_apply, val_main_v18_apply, val_main_v11_apply, c1, p1,
    val_main_v13_apply, onehot_apply, val_main_v12_apply, e1, val_main_v17_apply, val_main_v16_apply, c2, p2, z, onehot_apply]
  exact leftMask'_eq (x1 (ix1 b)) i.val i.isLt _ _ Ideal.ofBits_zero_f32
    (fun hv => readback_eq_one x1 b h0 (by omega))

/-- The reference's right mask at (b, i) is the operator's. -/
theorem right_apply (b : Fin 4096) (i : Fin 200) (h0 : 0 ≤ (x1 (ix1 b)).toInt) :
    val_main_v32 (F := Ideal) x1 (ix2 b i) = rightMask (x1 (ix1 b)) i.val := by
  have e0 : idx_main_v31 (ix2 b i) = ix2 b (0 : Fin 1) := funext fun a => match a with | ⟨0, _⟩ => rfl | ⟨1, _⟩ => rfl
  have e1 : idx_main_v26 (ix2 b i) = ix2 b (0 : Fin 1) := funext fun a => match a with | ⟨0, _⟩ => rfl | ⟨1, _⟩ => rfl
  have e2 : idx_main_v1 (idx_main_v20 (ix2 b i)) = ix1 b := funext fun a => match a with | ⟨0, _⟩ => rfl
  have c1 : val_main_v19 (F := Ideal) (ix2 b i) = col i.val := by
    rw [val_main_v19_apply, val_main_v3_apply, val_main_v2_apply]
  have p1 : val_main_v20 (F := Ideal) x1 (ix2 b i) = x1 (ix1 b) := by
    rw [val_main_v20_apply, val_main_v1_apply, e2]
  have c2 : val_main_v24 (F := Ideal) (ix2 b i) = IntOp.cmpi .slt (col i.val) 198#32 := by
    rw [val_main_v24_apply, val_main_v23_apply, val_main_v3_apply, val_main_v2_apply, val_main_v22_apply, val_main_c_0_apply]
  have z : val_main_call4_v0 (F := Ideal) (ix2 b i) = Ideal.ofBits .f32 0x00000000#32 := by
    rw [val_main_call4_v0_apply, val_main_cst_1_apply]; rfl
  rw [val_main_v32_apply, val_main_v31_apply, e0, valid_apply, val_main_v28_apply, val_main_v25_apply,
    val_main_v21_apply, c1, p1, c2, val_main_v27_apply, onehot_apply, val_main_v26_apply, e1, z]
  exact rightMask'_eq (x1 (ix1 b)) i.val i.isLt _ _ Ideal.ofBits_zero_f32
    (fun hv => readback_eq_one x1 b h0 (by omega))

/-! ## The three products along the lanes, and the two rolls -/

theorem term1_apply (b : Fin 4096) (i : Fin 200) (d : Fin 128) (h0 : 0 ≤ (x1 (ix1 b)).toInt) :
    val_main_v35 (F := Ideal) x0 x1 (ix3 b i d) = x0 (ix3 b i d) * leftMask (x1 (ix1 b)) i.val := by
  have e : idx_main_v33 (idx_main_v34 (ix3 b i d)) = ix2 b i := funext fun a => match a with | ⟨0, _⟩ => rfl | ⟨1, _⟩ => rfl
  rw [val_main_v35_apply, val_main_v34_apply, val_main_v33_apply, e, left_apply x1 b i h0]
  rfl

theorem prod2_apply (b : Fin 4096) (i : Fin 200) (d : Fin 128) :
    val_main_v38 (F := Ideal) x0 x1 (ix3 b i d) = x0 (ix3 b i d) * atMask (x1 (ix1 b)) i.val := by
  have e : idx_main_v36 (idx_main_v37 (ix3 b i d)) = ix2 b i := funext fun a => match a with | ⟨0, _⟩ => rfl | ⟨1, _⟩ => rfl
  rw [val_main_v38_apply, val_main_v37_apply, val_main_v36_apply, e, onehot_apply, onehot_eq_atMask]
  rfl

theorem prod3_apply (b : Fin 4096) (i : Fin 200) (d : Fin 128) (h0 : 0 ≤ (x1 (ix1 b)).toInt) :
    val_main_v42 (F := Ideal) x0 x1 (ix3 b i d) = x0 (ix3 b i d) * rightMask (x1 (ix1 b)) i.val := by
  have e : idx_main_v40 (idx_main_v41 (ix3 b i d)) = ix2 b i := funext fun a => match a with | ⟨0, _⟩ => rfl | ⟨1, _⟩ => rfl
  rw [val_main_v42_apply, val_main_v41_apply, val_main_v40_apply, e, right_apply x1 b i h0]
  rfl

/-- The second term: the product with the one-hot row, rolled forward by one column. -/
theorem term2_apply (b : Fin 4096) (i : Fin 200) (d : Fin 128) :
    val_main_v39 (F := Ideal) x0 x1 (ix3 b i d)
      = x0 (ix3 b (back 1 i) d) * atMask (x1 (ix1 b)) (back 1 i).val := by
  unfold val_main_v39 val_main_call5_v0 val_main_call5_v1
  rw [roll_concat_apply (n1 := 1) (n2 := 199) rfl (by decide) (by decide) _ _ _ _ b i (back 1 i) d rfl]
  exact prod2_apply x0 x1 b (back 1 i) d

/-- The third term: the product with the right mask, rolled forward by two columns. -/
theorem term3_apply (b : Fin 4096) (i : Fin 200) (d : Fin 128) (h0 : 0 ≤ (x1 (ix1 b)).toInt) :
    val_main_v43 (F := Ideal) x0 x1 (ix3 b i d)
      = x0 (ix3 b (back 2 i) d) * rightMask (x1 (ix1 b)) (back 2 i).val := by
  unfold val_main_v43 val_main_call6_v0 val_main_call6_v1
  rw [roll_concat_apply (n1 := 2) (n2 := 198) rfl (by decide) (by decide) _ _ _ _ b i (back 2 i) d rfl]
  exact prod3_apply x0 x1 b (back 2 i) d h0

/-- THE REFERENCE'S RESULT is the sequence operator of its arguments, when every position is nonnegative. -/
theorem result_eq (hpos : ∀ b : Fin 4096, 0 ≤ (x1 (ix1 b)).toInt) :
    val_main_v45 (F := Ideal) x0 x1 = G x0 x1 := by
  funext j
  obtain ⟨b, i, d, rfl⟩ : ∃ (b : Fin 4096) (i : Fin 200) (d : Fin 128), j = ix3 b i d := ⟨j 0, j 1, j 2, eq_ix3 j⟩
  rw [val_main_v45_apply, val_main_v44_apply, term1_apply x0 x1 b i d (hpos b), term2_apply, term3_apply x0 x1 b i d (hpos b),
    G_apply]
  rfl

end Cert.ReferenceIdeal.SeqRef

end
-- ==== Proof.PreRead.lean ====
/-
  The precondition, read back: every position is nonnegative.

  The printed precondition is the conjunction of two "all" reductions: every entry of x is finite, and every
  position compares ≥ 0 as a signed word. Only the second is used: an "and"-reduction over all 4096 positions that
  came out 1 had a 1 at each of them, and that bit is the signed comparison with the zero word.
-/
import proofs.«405079_j28106265985064_1_alg».proof.Pre_finite_inputs
import Idealize.ShloMosaic.Lib.ReduceAll
import Idealize.ShloMosaic.Lib.ValueIdx

namespace Cert.Pre_finite_inputs.SeqPre

open Cert.Pre_finite_inputs Idealize.ShloMosaic Idealize.ShloMosaic.ValueIdx

variable [Cert.Pre_finite_inputs.Facts]

theorem pos_nonneg {F : FTy → Type} [FloatOps F] (x0 : FVec F S4096x200x128 .f32) (x1 : IVec S4096 32)
    (h : fn (F := F) x0 x1 = fun _ => 1#1) (b : Fin 4096) : 0 ≤ (x1 (ix1 b)).toInt := by
  have h0 := congrFun h ix0
  dsimp only [fn] at h0
  obtain ⟨-, h6⟩ := IntOp.andi_eq_one.1 h0
  haveI : Subsingleton S_.Idx := ⟨fun a b => funext fun d => d.elim0⟩
  have h5 := Host.reduce_andi_all _ _ _ _ _ h6 (ix1 b)
  have h7 : (0#32 : BitVec 32).toInt ≤ (x1 (ix1 b)).toInt := IntOp.cmpi_sge.1 h5
  have h00 : (0#32 : BitVec 32).toInt = 0 := by decide
  omega

end Cert.Pre_finite_inputs.SeqPre
-- ==== Proof.lean ====
/-
  The sequence operator: a kernel over 64-row blocks against its array-level reference, equal on the extended
  reals for nonnegative positions.

  Inputs: x of shape [4096, 200, 128] and one signed 32-bit position p per row. With [c] a condition read as 0 or 1
  and ι the word of column i, the kernel multiplies row b of x by three masks along the lanes,
      left = [ι < p] · [p ≤ 197],   at = [ι = p],   right = [p < ι and ι < 198] · [p ≤ 197],
  rolls the second product forward by one column and the third by two, and adds (Spec.lean's G).
  The reference builds the same masks from the one-hot row [p = ι] and the value v it reads back from that row at
  position p; the kernel has v = 1 built in. For 0 ≤ p ≤ 197 the value read back is 1, and for p > 197 both sides
  carry the factor [p ≤ 197] = 0, which kills v on the extended reals: so the two agree for every p ≥ 0 (Masks.lean).
  For p < 0 they differ (the wrap of a negative position reads 0 back where the kernel assumes 1), which is why the
  precondition asks for nonnegative positions; no finiteness of x is used anywhere, since both sides are the same
  sums of the same products once the masks agree.

  Modules: Masks (the masks as scalars, the two forms equal), Spec (G), BlockOps and KernelValue (the kernel's block
  at an index, and from the 64 blocks to the array), RefRun (the reference's run, its operation list cut before the
  first join of slices), RollOps, LibGatherRowTake, LibReduceAnd and RefValue (the reference at an index), PreRead
  (the precondition read back as 0 ≤ p). The frames of the two kernel programs are the generated ones; the
  reference's frame is its run with the result dropped; nothing was idealized, so the preservation claim is trivial.
-/
import proofs.«405079_j28106265985064_1_alg».proof.Defs
import proofs.«405079_j28106265985064_1_alg».proof.Proof.Gen.Kernel
import proofs.«405079_j28106265985064_1_alg».proof.Proof.Gen.Kernel.Skeleton
import proofs.«405079_j28106265985064_1_alg».proof.Proof.Gen.Kernel.Launch
import proofs.«405079_j28106265985064_1_alg».proof.Proof.Gen.Kernel.Points
import proofs.«405079_j28106265985064_1_alg».proof.Proof.Gen.Kernel.Frame
import proofs.«405079_j28106265985064_1_alg».proof.Proof.Gen.KernelIdeal
import proofs.«405079_j28106265985064_1_alg».proof.Proof.Gen.KernelIdeal.Skeleton
import proofs.«405079_j28106265985064_1_alg».proof.Proof.Gen.KernelIdeal.Launch
import proofs.«405079_j28106265985064_1_alg».proof.Proof.Gen.KernelIdeal.Points
import proofs.«405079_j28106265985064_1_alg».proof.Proof.Gen.KernelIdeal.Frame
import proofs.«405079_j28106265985064_1_alg».proof.Proof.Gen.ReferenceIdeal
import proofs.«405079_j28106265985064_1_alg».proof.Proof.Gen.Pre_finite_inputs
import proofs.«405079_j28106265985064_1_alg».proof.Proof.Gen.KernelIdeal.Value
import proofs.«405079_j28106265985064_1_alg».proof.Proof.KernelValue
import proofs.«405079_j28106265985064_1_alg».proof.Proof.RefRun
import proofs.«405079_j28106265985064_1_alg».proof.Proof.RefValue
import proofs.«405079_j28106265985064_1_alg».proof.Proof.PreRead
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.SeqRunCut.run (F := Ideal) m ρ)

/-- Both programs end at the sequence operator of the (agreeing) arguments: the kernel by its blocks, the reference
    index by index, the positions nonnegative by the precondition. -/
theorem algebraic : Cert.algebraic_KernelIdeal_ReferenceIdeal := by
  intro m ρ m' ρ' hpre hagree
  refine ⟨_, Cert.KernelIdeal.SeqValue.run m ρ, ?_⟩
  refine (θ_run Cert.ReferenceIdeal.defs _ _).mono (fun _ h c => ⟨(h c).1.trans ?_, (h c).2⟩)
    (Cert.ReferenceIdeal.SeqRunCut.run (F := Ideal) m' ρ')
  rw [(hagree c).1, (hagree c).2]
  exact Cert.ReferenceIdeal.SeqRef.result_eq _ _ (fun b => Cert.Pre_finite_inputs.SeqPre.pos_nonneg _ _ (hpre c) b)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
